-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S4096x14336 : Shape := ⟨2, ![4096, 14336]⟩
abbrev S32x14336 : Shape := ⟨2, ![32, 14336]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S32x14336 : S_.BroadcastsInDim S32x14336 (![] : Fin 0 → Fin S32x14336.rank)
  reducesTo_S32x14336_S_d0_1 : S32x14336.ReducesTo [0, 1] S_

variable [Facts]

def fn {F : FTy → Type} [FloatOps F] (main_arg0 : FVec F S64x4096 .f32) (main_arg1 : IVec S4096x14336 32) (main_arg2 : FVec F S32x14336 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S32x14336 .f32 := Host.absf main_arg2
  let main_cst_0 : FVec F S_ .f32 := constant S_ .f32 0x7F800000#32
  let main_v5 : FVec F S32x14336 .f32 := broadcastInDim S32x14336 ![] bcast_S_S32x14336 main_cst_0
  let main_v6 : IVec S32x14336 1 := cmpf .olt main_v4 main_v5
  let main_c_1 : IVec S_ 1 := constantI S_ 1 1#1
  let main_v7 : IVec S_ 1 := (fun x v => Host.reduce IntOp.andi x v reducesTo_S32x14336_S_d0_1 h_S_) main_v6 main_c_1
  let main_v8 : IVec S_ 1 := andi main_v3 main_v7
  main_v8
-- ==== Kernel.lean ====
abbrev S64x4096 : Shape := ⟨2, ![64, 4096]⟩
abbrev S4096x14336 : Shape := ⟨2, ![4096, 14336]⟩
abbrev S32x14336 : Shape := ⟨2, ![32, 14336]⟩
abbrev S64x14336 : Shape := ⟨2, ![64, 14336]⟩
abbrev S64x1024 : Shape := ⟨2, ![64, 1024]⟩
abbrev S1024x2048 : Shape := ⟨2, ![1024, 2048]⟩
abbrev S8x2048 : Shape := ⟨2, ![8, 2048]⟩
abbrev S64x2048 : Shape := ⟨2, ![64, 2048]⟩
abbrev S128x2048 : Shape := ⟨2, ![128, 2048]⟩
abbrev S64x128 : Shape := ⟨2, ![64, 128]⟩
abbrev S1x2048 : Shape := ⟨2, ![1, 2048]⟩

abbrev nBuf : Space → Nat
  | .hbm => 4
  | .vmem => 9
  | .smem => 0
  | _ => 0

abbrev bufTy : (tb : Table) → Fin (tcTables nBuf tb) → BufTy
  | .hbm, ⟨0, _⟩ => ⟨S64x4096, .f32⟩
  | .hbm, ⟨1, _⟩ => ⟨S4096x14336, .i32⟩
  | .hbm, ⟨2, _⟩ => ⟨S32x14336, .f32⟩
  | .hbm, ⟨3, _⟩ => ⟨S64x14336, .f32⟩
  | .local _ .vmem, ⟨0, _⟩ => ⟨S64x1024, .f32⟩
  | .local _ .vmem, ⟨1, _⟩ => ⟨S64x1024, .f32⟩
  | .local _ .vmem, ⟨2, _⟩ => ⟨S1024x2048, .i32⟩
  | .local _ .vmem, ⟨3, _⟩ => ⟨S1024x2048, .i32⟩
  | .local _ .vmem, ⟨4, _⟩ => ⟨S8x2048, .f32⟩
  | .local _ .vmem, ⟨5, _⟩ => ⟨S8x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 4], ![false, false]⟩

def k0_cond2 (i : grid0.Coords) : BitVec 1 :=
  let arg1 : BitVec 32 := BitVec.ofNat 32 (i 1).val
  let c3_i32 : BitVec 32 := 3#32
  let v103 : BitVec 1 := Scalar.cmpi .eq arg1 c3_i32
  let v104 : BitVec 32 := Scalar.extui v103
  let c0_i32_53 : BitVec 32 := 0#32
  let v105 : BitVec 1 := Scalar.cmpi .ne v104 c0_i32_53
  v105

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S1024x2048_S128x2048_0_0 : ∀ a, (![0, 0] : Fin 2 → Nat) a + S128x2048.size a ≤ S1024x2048.size a
  h_S128x2048 : 0 < S128x2048.numel
  inb_S64x1024_S64x128_0_0 : ∀ a, (![0, 0] : Fin 2 → Nat) a + S64x128.size a ≤ S64x1024.size a
  h_S64x128 : 0 < S64x128.numel
  inb_S8x2048_S1x2048_0_0 : ∀ a, (![0, 0] : Fin 2 → Nat) a + S1x2048.size a ≤ S8x2048.size a
  h_S1x2048 : 0 < S1x2048.numel
  broadcasts_S1x2048_S128x2048 : S1x2048.Broadcasts S128x2048
  bitsLt_bf16_f32 : FTy.bits .bf16 < FTy.bits .f32
  inb_S1024x2048_S128x2048_128_0 : ∀ a, (![128, 0] : Fin 2 → Nat) a + S128x2048.size a ≤ S1024x2048.size a
  inb_S64x1024_S64x128_0_128 : ∀ a, (![0, 128] : Fin 2 → Nat) a + S64x128.size a ≤ S64x1024.size a
  inb_S8x2048_S1x2048_1_0 : ∀ a, (![1, 0] : Fin 2 → Nat) a + S1x2048.size a ≤ S8x2048.size a
  inb_S1024x2048_S128x2048_256_0 : ∀ a, (![256, 0] : Fin 2 → Nat) a + S128x2048.size a ≤ S1024x2048.size a
  inb_S64x1024_S64x128_0_256 : ∀ a, (![0, 256] : Fin 2 → Nat) a + S64x128.size a ≤ S64x1024.size a
  inb_S8x2048_S1x2048_2_0 : ∀ a, (![2, 0] : Fin 2 → Nat) a + S1x2048.size a ≤ S8x2048.size a
  inb_S1024x2048_S128x2048_384_0 : ∀ a, (![384, 0] : Fin 2 → Nat) a + S128x2048.size a ≤ S1024x2048.size a
  inb_S64x1024_S64x128_0_384 : ∀ a, (![0, 384] : Fin 2 → Nat) a + S64x128.size a ≤ S64x1024.size a
  inb_S8x2048_S1x2048_3_0 : ∀ a, (![3, 0] : Fin 2 → Nat) a + S1x2048.size a ≤ S8x2048.size a
  inb_S1024x2048_S128x2048_512_0 : ∀ a, (![512, 0] : Fin 2 → Nat) a + S128x2048.size a ≤ S1024x2048.size a
  inb_S64x1024_S64x128_0_512 : ∀ a, (![0, 512] : Fin 2 → Nat) a + S64x128.size a ≤ S64x1024.size a
  inb_S8x2048_S1x2048_4_0 : ∀ a, (![4, 0] : Fin 2 → Nat) a + S1x2048.size a ≤ S8x2048.size a
  inb_S1024x2048_S128x2048_640_0 : ∀ a, (![640, 0] : Fin 2 → Nat) a + S128x2048.size a ≤ S1024x2048.size a
  inb_S64x1024_S64x128_0_640 : ∀ a, (![0, 640] : Fin 2 → Nat) a + S64x128.size a ≤ S64x1024.size a
  inb_S8x2048_S1x2048_5_0 : ∀ a, (![5, 0] : Fin 2 → Nat) a + S1x2048.size a ≤ S8x2048.size a
  inb_S1024x2048_S128x2048_768_0 : ∀ a, (![768, 0] : Fin 2 → Nat) a + S128x2048.size a ≤ S1024x2048.size a
  inb_S64x1024_S64x128_0_768 : ∀ a, (![0, 768] : Fin 2 → Nat) a + S64x128.size a ≤ S64x1024.size a
  inb_S8x2048_S1x2048_6_0 : ∀ a, (![6, 0] : Fin 2 → Nat) a + S1x2048.size a ≤ S8x2048.size a
  inb_S1024x2048_S128x2048_896_0 : ∀ a, (![896, 0] : Fin 2 → Nat) a + S128x2048.size a ≤ S1024x2048.size a
  inb_S64x1024_S64x128_0_896 : ∀ a, (![0, 896] : Fin 2 → Nat) a + S64x128.size a ≤ S64x1024.size a
  inb_S8x2048_S1x2048_7_0 : ∀ a, (![7, 0] : Fin 2 → Nat) a + S1x2048.size a ≤ S8x2048.size a
  dot_S64x128_S128x2048_S64x2048_1_0_0_1_n_n_wf : DotDims.WF S64x128 S128x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S64x4096.size a
  hwx0_0 : ∀ i : grid0.Coords, EltTy.bits .f32 = 32 ∨ (Rect.block (s := S64x4096) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x14336.size a
  hwx0_1 : ∀ i : grid0.Coords, EltTy.bits .i32 = 32 ∨ (Rect.block (s := S4096x14336) S1024x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S32x14336.size a
  hwx0_2 : ∀ i : grid0.Coords, EltTy.bits .f32 = 32 ∨ (Rect.block (s := S32x14336) S8x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x14336.size a
  hwx0_3 : ∀ i : grid0.Coords, EltTy.bits .f32 = 32 ∨ (Rect.block (s := S64x14336) S64x2048.size (cc0_transform_3 i) (hinb0_3 i)).WholeWords (EltTy.packing .f32)

variable [Facts₀]

def dot_S64x128_S128x2048_S64x2048_1_0_0_1_n_n : DotDims S64x128 S128x2048 S64x2048 where
  lhsContracting := [1]
  rhsContracting := [0]
  lhsNonContracting := [0]
  rhsNonContracting := [1]
  lhsBatch := []
  rhsBatch := []
  wf := dot_S64x128_S128x2048_S64x2048_1_0_0_1_n_n_wf

abbrev win0_0 : Pipeline.Window sig grid0 :=
  Pipeline.Window.ofSpec (Memref.whole main_arg0) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x4096 : Shape := ⟨2, ![64, 4096]⟩
abbrev S4096x14336 : Shape := ⟨2, ![4096, 14336]⟩
abbrev S32x14336 : Shape := ⟨2, ![32, 14336]⟩
abbrev S32x128x14336 : Shape := ⟨3, ![32, 128, 14336]⟩
abbrev S_ : Shape := ⟨0, ![]⟩
abbrev S64x14336 : Shape := ⟨2, ![64, 14336]⟩

abbrev nBuf : Space → Nat
  | .hbm => 11
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096x14336, .i32⟩
  | .hbm, ⟨2, _⟩ => ⟨S32x14336, .f32⟩
  | .hbm, ⟨3, _⟩ => ⟨S32x128x14336, .f32⟩
  | .hbm, ⟨4, _⟩ => ⟨S4096x14336, .f32⟩
  | .hbm, ⟨5, _⟩ => ⟨S4096x14336, .f32⟩
  | .hbm, ⟨6, _⟩ => ⟨S_, .f32⟩
  | .hbm, ⟨7, _⟩ => ⟨S4096x14336, .f32⟩
  | .hbm, ⟨8, _⟩ => ⟨S4096x14336, .f32⟩
  | .hbm, ⟨9, _⟩ => ⟨S4096x14336, .f32⟩
  | .hbm, ⟨10, _⟩ => ⟨S64x14336, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S32x14336_S32x128x14336_0_2 : S32x14336.BroadcastsInDim S32x128x14336 (![0, 2] : Fin 2 → Fin S32x128x14336.rank)
  shapeCasts_S32x128x14336_S4096x14336 : S32x128x14336.ShapeCasts S4096x14336
  bcast_S_S4096x14336 : S_.BroadcastsInDim S4096x14336 (![] : Fin 0 → Fin S4096x14336.rank)
  dot_S64x4096_S4096x14336_S64x14336_1_0_0_1_n_n_wf : DotDims.WF S64x4096 S4096x14336 S64x14336 [1] [0] [0] [1] [] []

variable [Facts₀]

def dot_S64x4096_S4096x14336_S64x14336_1_0_0_1_n_n : DotDims S64x4096 S4096x14336 S64x14336 where
  lhsContracting := [1]
  rhsContracting := [0]
  lhsNonContracting := [0]
  rhsNonContracting := [1]
  lhsBatch := []
  rhsBatch := []
  wf := dot_S64x4096_S4096x14336_S64x14336_1_0_0_1_n_n_wf

class Facts : Prop extends Facts₀ where

variable [Facts]
-- ==== Proof.Pieces.lean ====
/-
  What one run of the kernel body leaves behind, as a value.

  At every grid point the body adds the point's eight group products onto an accumulator and stores the result in the
  scratch buffer that is carried from point to point.  At the first point of a run along the contraction axis the
  accumulator is the freshly stored zero block, at the later points it is what the point before left in the
  scratch; at the last point of the run the stored value is also copied to the output block.  The body's stores cover
  their buffers whole, so the contents left are exactly the stored payloads.
-/
import proofs.«108225_j29832842838090_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic
open Idealize.SL Idealize.SL.Sem

variable {F : FTy → Type} [FloatOps F]

theorem zero_offsets : (![0, 0] : Fin 2 → Nat) = fun _ => 0 := funext fun a => by fin_cases a <;> rfl

/-- One point's update of the accumulator `acc` from the point's three input blocks: group `g` reads rows
    `128 g … 128 g + 127` of the codes' block, the same columns of the activations' block, and row `g` of the scales'
    block. -/
def bodyStep (acc : Vec F S64x2048 .f32) (x0 : Vec F S64x1024 .f32) (x1 : Vec F S1024x2048 .i32) (x2 : Vec F S8x2048 .f32) : Vec F S64x2048 .f32 :=
  k0_pay4
    (k0_pay3
      (k0_pay2 acc
        (View.ld x1 (Rect.unit ![0, 0] S128x2048.size inb_S1024x2048_S128x2048_0_0)) (View.ld x0 (Rect.unit ![0, 0] S64x128.size inb_S64x1024_S64x128_0_0)) (View.ld x2 (Rect.unit ![0, 0] S1x2048.size inb_S8x2048_S1x2048_0_0))
        (View.ld x1 (Rect.unit ![128, 0] S128x2048.size inb_S1024x2048_S128x2048_128_0)) (View.ld x0 (Rect.unit ![0, 128] S64x128.size inb_S64x1024_S64x128_0_128)) (View.ld x2 (Rect.unit ![1, 0] S1x2048.size inb_S8x2048_S1x2048_1_0)))
      (View.ld x1 (Rect.unit ![256, 0] S128x2048.size inb_S1024x2048_S128x2048_256_0)) (View.ld x0 (Rect.unit ![0, 256] S64x128.size inb_S64x1024_S64x128_0_256)) (View.ld x2 (Rect.unit ![2, 0] S1x2048.size inb_S8x2048_S1x2048_2_0))
      (View.ld x1 (Rect.unit ![384, 0] S128x2048.size inb_S1024x2048_S128x2048_384_0)) (View.ld x0 (Rect.unit ![0, 384] S64x128.size inb_S64x1024_S64x128_0_384)) (View.ld x2 (Rect.unit ![3, 0] S1x2048.size inb_S8x2048_S1x2048_3_0))
      (View.ld x1 (Rect.unit ![512, 0] S128x2048.size inb_S1024x2048_S128x2048_512_0)) (View.ld x0 (Rect.unit ![0, 512] S64x128.size inb_S64x1024_S64x128_0_512)) (View.ld x2 (Rect.unit ![4, 0] S1x2048.size inb_S8x2048_S1x2048_4_0)))
    (View.ld x1 (Rect.unit ![640, 0] S128x2048.size inb_S1024x2048_S128x2048_640_0)) (View.ld x0 (Rect.unit ![0, 640] S64x128.size inb_S64x1024_S64x128_0_640)) (View.ld x2 (Rect.unit ![5, 0] S1x2048.size inb_S8x2048_S1x2048_5_0))
    (View.ld x1 (Rect.unit ![768, 0] S128x2048.size inb_S1024x2048_S128x2048_768_0)) (View.ld x0 (Rect.unit ![0, 768] S64x128.size inb_S64x1024_S64x128_0_768)) (View.ld x2 (Rect.unit ![6, 0] S1x2048.size inb_S8x2048_S1x2048_6_0))
    (View.ld x1 (Rect.unit ![896, 0] S128x2048.size inb_S1024x2048_S128x2048_896_0)) (View.ld x0 (Rect.unit ![0, 896] S64x128.size inb_S64x1024_S64x128_0_896)) (View.ld x2 (Rect.unit ![7, 0] S1x2048.size inb_S8x2048_S1x2048_7_0))

/-- At a middle point of a run the scratch ends at the update of what the point before left in it. -/
theorem scratch_mid (c : Dev nD) (i : grid0.Coords) (arg2 : Memref sig .tc .vmem S64x1024 .f32) (harg2 : arg2.IsWhole) (arg3 : Memref sig .tc .vmem S1024x2048 .i32) (harg3 : arg3.IsWhole) (arg4 : Memref sig .tc .vmem S8x2048 .f32) (harg4 : arg4.IsWhole) (arg5 : Memref sig .tc .vmem S64x2048 .f32) (harg5 : arg5.IsWhole) (arg6 : Memref sig .tc .vmem S64x2048 .f32) (harg6 : arg6.IsWhole) (hc0 : ¬cond0_0 i) (hc1 : ¬cond0_1 i)
    (x0 : Vec F S64x1024 .f32) (x1 : Vec F S1024x2048 .i32) (x2 : Vec F S8x2048 .f32) (xs0 : Vec F S64x2048 .f32) :
    sout0_B_0 c i arg2 harg2 arg3 harg3 arg4 harg4 arg5 harg5 arg6 harg6 hc0 hc1 x0 x1 x2 xs0 = bodyStep xs0 x0 x1 x2 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero zero_offsets]
  unfold bodyStep
  simp only [View.readAt_eq_ld, harg2.read_unread, harg3.read_unread, harg4.read_unread, harg6.read_unread,
    View.ld_unit_zero (S := S64x2048) zero_offsets]

/-- At the last point of a run the scratch ends at the same update, -/
theorem scratch_last (c : Dev nD) (i : grid0.Coords) (arg2 : Memref sig .tc .vmem S64x1024 .f32) (harg2 : arg2.IsWhole) (arg3 : Memref sig .tc .vmem S1024x2048 .i32) (harg3 : arg3.IsWhole) (arg4 : Memref sig .tc .vmem S8x2048 .f32) (harg4 : arg4.IsWhole) (arg5 : Memref sig .tc .vmem S64x2048 .f32) (harg5 : arg5.IsWhole) (arg6 : Memref sig .tc .vmem S64x2048 .f32) (harg6 : arg6.IsWhole) (hc0 : ¬cond0_0 i) (hc1 : cond0_1 i)
    (x0 : Vec F S64x1024 .f32) (x1 : Vec F S1024x2048 .i32) (x2 : Vec F S8x2048 .f32) (xs0 : Vec F S64x2048 .f32) :
    sout0_C_0 c i arg2 harg2 arg3 harg3 arg4 harg4 arg5 harg5 arg6 harg6 hc0 hc1 x0 x1 x2 xs0 = bodyStep xs0 x0 x1 x2 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero zero_offsets]
  unfold bodyStep
  simp only [View.readAt_eq_ld, harg2.read_unread, harg3.read_unread, harg4.read_unread, harg6.read_unread,
    View.ld_unit_zero (S := S64x2048) zero_offsets]

/-- and so does the output block, which the body fills from the scratch. -/
theorem output_last (c : Dev nD) (i : grid0.Coords) (arg2 : Memref sig .tc .vmem S64x1024 .f32) (harg2 : arg2.IsWhole) (arg3 : Memref sig .tc .vmem S1024x2048 .i32) (harg3 : arg3.IsWhole) (arg4 : Memref sig .tc .vmem S8x2048 .f32) (harg4 : arg4.IsWhole) (arg5 : Memref sig .tc .vmem S64x2048 .f32) (harg5 : arg5.IsWhole) (arg6 : Memref sig .tc .vmem S64x2048 .f32) (harg6 : arg6.IsWhole) (hc0 : ¬cond0_0 i) (hc1 : cond0_1 i)
    (x0 : Vec F S64x1024 .f32) (x1 : Vec F S1024x2048 .i32) (x2 : Vec F S8x2048 .f32) (xs0 : Vec F S64x2048 .f32) :
    out0_C_3 c i arg2 harg2 arg3 harg3 arg4 harg4 arg5 harg5 arg6 harg6 hc0 hc1 x0 x1 x2 xs0 = bodyStep xs0 x0 x1 x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero zero_offsets, View.readCov_unit_zero (S := S64x2048) _ zero_offsets]
  unfold bodyStep
  simp only [View.readAt_eq_ld, harg2.read_unread, harg3.read_unread, harg4.read_unread, harg6.read_unread,
    View.ld_unit_zero (S := S64x2048) zero_offsets]

/-- At the first point of a run the accumulator is the zero block just stored. -/
theorem scratch_first (c : Dev nD) (i : grid0.Coords) (arg2 : Memref sig .tc .vmem S64x1024 .f32) (harg2 : arg2.IsWhole) (arg3 : Memref sig .tc .vmem S1024x2048 .i32) (harg3 : arg3.IsWhole) (arg4 : Memref sig .tc .vmem S8x2048 .f32) (harg4 : arg4.IsWhole) (arg5 : Memref sig .tc .vmem S64x2048 .f32) (harg5 : arg5.IsWhole) (arg6 : Memref sig .tc .vmem S64x2048 .f32) (harg6 : arg6.IsWhole) (hc0 : cond0_0 i) (hc1 : ¬cond0_1 i)
    (x0 : Vec F S64x1024 .f32) (x1 : Vec F S1024x2048 .i32) (x2 : Vec F S8x2048 .f32) :
    sout0_A_0 c i arg2 harg2 arg3 harg3 arg4 harg4 arg5 harg5 arg6 harg6 hc0 hc1 x0 x1 x2 = bodyStep (k0_pay1 (F := F)) x0 x1 x2 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S64x2048) zero_offsets, View.readCov_unit_zero (S := S64x2048) _ zero_offsets]
  unfold bodyStep
  simp only [View.readAt_eq_ld, harg2.read_unread, harg3.read_unread, harg4.read_unread]

end Cert.KernelIdeal.Pieces

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.GroupQuant.lean ====
/-
  A matrix product against group-quantized weights: the specification, and the regrouping of its contraction sum.

  The weights are stored as integer codes `b κ n` with one scale per group of 128 consecutive rows and per column:
  the weight is `w κ n = (b κ n - 8) · s (κ / 128) n`, and the product is `out p n = ∑ κ < 4096, a p κ · w κ n`.
  A tiled evaluation walks the contraction axis in four blocks of 1024 rows, each block in eight groups of 128, adding
  one group's partial product after another onto an accumulator.  Only commutativity and associativity of the sum
  are used, so everything here holds on the extended reals with no finiteness assumption.
-/
import Idealize.ShloMosaic.PureOps.Ideal.Laws
import Idealize.ShloMosaic.Lib.ValueIdx

noncomputable section

open scoped BigOperators

namespace Cert.GroupQuant
open Idealize.ShloMosaic Idealize.ShloMosaic.ValueIdx

/-! ## Sums over consecutive naturals, cut into groups -/

/-- An accumulator plus 1024 consecutive terms is the accumulator with eight groups of 128 terms added one after
    another. -/
theorem add_sum_eight_groups {M : Type*} [AddCommMonoid M] (acc : M) (h : ℕ → M) :
    acc + ∑ i ∈ Finset.range 1024, h i
      = acc + (∑ j ∈ Finset.range 128, h (0 + j)) + (∑ j ∈ Finset.range 128, h (128 + j))
          + (∑ j ∈ Finset.range 128, h (256 + j)) + (∑ j ∈ Finset.range 128, h (384 + j))
          + (∑ j ∈ Finset.range 128, h (512 + j)) + (∑ j ∈ Finset.range 128, h (640 + j))
          + (∑ j ∈ Finset.range 128, h (768 + j)) + (∑ j ∈ Finset.range 128, h (896 + j)) := by
  have e7 : ∑ x ∈ Finset.range 1024, h x = ∑ x ∈ Finset.range 896, h x + ∑ x ∈ Finset.range 128, h (896 + x) :=
    Finset.sum_range_add h 896 128
  have e6 : ∑ x ∈ Finset.range 896, h x = ∑ x ∈ Finset.range 768, h x + ∑ x ∈ Finset.range 128, h (768 + x) :=
    Finset.sum_range_add h 768 128
  have e5 : ∑ x ∈ Finset.range 768, h x = ∑ x ∈ Finset.range 640, h x + ∑ x ∈ Finset.range 128, h (640 + x) :=
    Finset.sum_range_add h 640 128
  have e4 : ∑ x ∈ Finset.range 640, h x = ∑ x ∈ Finset.range 512, h x + ∑ x ∈ Finset.range 128, h (512 + x) :=
    Finset.sum_range_add h 512 128
  have e3 : ∑ x ∈ Finset.range 512, h x = ∑ x ∈ Finset.range 384, h x + ∑ x ∈ Finset.range 128, h (384 + x) :=
    Finset.sum_range_add h 384 128
  have e2 : ∑ x ∈ Finset.range 384, h x = ∑ x ∈ Finset.range 256, h x + ∑ x ∈ Finset.range 128, h (256 + x) :=
    Finset.sum_range_add h 256 128
  have e1 : ∑ x ∈ Finset.range 256, h x = ∑ x ∈ Finset.range 128, h x + ∑ x ∈ Finset.range 128, h (128 + x) :=
    Finset.sum_range_add h 128 128
  rw [e7, e6, e5, e4, e3, e2, e1]
  simp only [Nat.zero_add, add_assoc]

/-- The first `1024 · (k + 1)` terms are the first `1024 · k` terms and the next block of 1024. -/
theorem sum_range_next_block {M : Type*} [AddCommMonoid M] (T : ℕ → M) (k : ℕ) :
    ∑ i ∈ Finset.range (1024 * (k + 1)), T i
      = ∑ i ∈ Finset.range (1024 * k), T i + ∑ i ∈ Finset.range 1024, T (1024 * k + i) := by
  rw [Nat.mul_succ]; exact Finset.sum_range_add T (1024 * k) 1024

/-! ## The specification -/

/-- The offset every integer code is read against: the float 8. -/
abbrev zeroPoint : EReal := Ideal.ofBits .f32 0x41000000#32

/-- One term of the contraction: `a p κ · ((b κ n − 8) · s (κ / 128) n)`, and `0` past the contraction's extent, so that
    sums over ranges of naturals can be cut freely. -/
def term (a : FVec Ideal ⟨2, ![64, 4096]⟩ .f32) (b : IVec ⟨2, ![4096, 14336]⟩ 32) (s : FVec Ideal ⟨2, ![32, 14336]⟩ .f32)
    (p : Fin 64) (n : Fin 14336) (κ : ℕ) : EReal :=
  if h : κ < 4096 then
    a (ix2 p ⟨κ, h⟩) * ((FloatOps.sitofp (F := Ideal) .f32 (b (ix2 ⟨κ, h⟩ n)) - zeroPoint)
      * s (ix2 ⟨κ / 128, by omega⟩ n))
  else 0

/-- The product against the dequantized weights, index by index. -/
def gemm (a : FVec Ideal ⟨2, ![64, 4096]⟩ .f32) (b : IVec ⟨2, ![4096, 14336]⟩ 32) (s : FVec Ideal ⟨2, ![32, 14336]⟩ .f32) :
    FVec Ideal ⟨2, ![64, 14336]⟩ .f32 :=
  fun i => ∑ κ ∈ Finset.range 4096, term a b s (i 0) (i 1) κ

/-- The specification as a sum over the contraction's own index type. -/
theorem gemm_apply (a : FVec Ideal ⟨2, ![64, 4096]⟩ .f32) (b : IVec ⟨2, ![4096, 14336]⟩ 32) (s : FVec Ideal ⟨2, ![32, 14336]⟩ .f32)
    (i : (⟨2, ![64, 14336]⟩ : Shape).Idx) :
    gemm a b s i = ∑ κ : Fin 4096, a (ix2 (i 0) κ) * ((FloatOps.sitofp (F := Ideal) .f32 (b (ix2 κ (i 1))) - zeroPoint)
      * s (ix2 ⟨κ.val / 128, by have := κ.isLt; omega⟩ (i 1))) := by
  unfold gemm
  rw [Finset.sum_range]
  refine Finset.sum_congr rfl fun κ _ => ?_
  unfold term
  rw [dif_pos κ.isLt]

/-! ## One block of the contraction, as the tiled evaluation sees it -/

/-- One term of a 1024-row block: the activations' block `x`, the codes' block `c` and the eight scale rows `z` of the
    block, at local row `i`. -/
def blockTerm (x : FVec Ideal ⟨2, ![64, 1024]⟩ .f32) (c : IVec ⟨2, ![1024, 2048]⟩ 32) (z : FVec Ideal ⟨2, ![8, 2048]⟩ .f32)
    (p : Fin 64) (q : Fin 2048) (i : ℕ) : EReal :=
  if h : i < 1024 then
    x (ix2 p ⟨i, h⟩) * ((FloatOps.sitofp (F := Ideal) .f32 (c (ix2 ⟨i, h⟩ q)) - zeroPoint)
      * z (ix2 ⟨i / 128, by omega⟩ q))
  else 0

/-- One group's partial product: 128 rows of activations `u` against 128 rows of codes `v` scaled by the single row
    `r`. -/
def groupDot (u : FVec Ideal ⟨2, ![64, 128]⟩ .f32) (v : IVec ⟨2, ![128, 2048]⟩ 32) (r : FVec Ideal ⟨2, ![1, 2048]⟩ .f32)
    (p : Fin 64) (q : Fin 2048) : EReal :=
  ∑ κ : Fin 128, u (ix2 p κ) * ((FloatOps.sitofp (F := Ideal) .f32 (v (ix2 κ q)) - zeroPoint) * r (ix2 (0 : Fin 1) q))

/-- A group's partial product is 128 consecutive block terms, when the group's three operands are the block's rows
    `off … off + 127` of activations and codes, `off = 128 g`, and its scale row `g`. -/
theorem groupDot_eq_sum_blockTerm (x : FVec Ideal ⟨2, ![64, 1024]⟩ .f32) (c : IVec ⟨2, ![1024, 2048]⟩ 32)
    (z : FVec Ideal ⟨2, ![8, 2048]⟩ .f32) (u : FVec Ideal ⟨2, ![64, 128]⟩ .f32) (v : IVec ⟨2, ![128, 2048]⟩ 32)
    (r : FVec Ideal ⟨2, ![1, 2048]⟩ .f32) (off g : ℕ) (hoff : off = 128 * g) (hg : g < 8)
    (hu : ∀ (p : Fin 64) (κ : Fin 128), u (ix2 p κ) = x (ix2 p ⟨off + κ.val, by have := κ.isLt; omega⟩))
    (hv : ∀ (κ : Fin 128) (q : Fin 2048), v (ix2 κ q) = c (ix2 ⟨off + κ.val, by have := κ.isLt; omega⟩ q))
    (hr : ∀ q : Fin 2048, r (ix2 (0 : Fin 1) q) = z (ix2 ⟨g, hg⟩ q))
    (p : Fin 64) (q : Fin 2048) :
    groupDot u v r p q = ∑ j ∈ Finset.range 128, blockTerm x c z p q (off + j) := by
  unfold groupDot
  rw [Finset.sum_range]
  refine Finset.sum_congr rfl fun κ _ => ?_
  have hκ := κ.isLt
  unfold blockTerm
  rw [dif_pos (by omega : off + κ.val < 1024), hu, hv, hr]
  have hz : (⟨(off + κ.val) / 128, by omega⟩ : Fin 8) = ⟨g, hg⟩ := Fin.ext (by show (off + κ.val) / 128 = g; omega)
  rw [hz]

/-- A block term is the contraction's term at the block's position, when the three blocks are cut out of the arrays at
    block row `k` of the contraction axis and block column `n`. -/
theorem blockTerm_eq_term (a : FVec Ideal ⟨2, ![64, 4096]⟩ .f32) (b : IVec ⟨2, ![4096, 14336]⟩ 32) (s : FVec Ideal ⟨2, ![32, 14336]⟩ .f32)
    (x : FVec Ideal ⟨2, ![64, 1024]⟩ .f32) (c : IVec ⟨2, ![1024, 2048]⟩ 32) (z : FVec Ideal ⟨2, ![8, 2048]⟩ .f32)
    (k n : ℕ) (hk : k < 4) (hn : n < 7)
    (hx : ∀ (p : Fin 64) (i : Fin 1024), x (ix2 p i) = a (ix2 p ⟨1024 * k + i.val, by have := i.isLt; omega⟩))
    (hc : ∀ (i : Fin 1024) (q : Fin 2048), c (ix2 i q) = b (ix2 ⟨1024 * k + i.val, by have := i.isLt; omega⟩ ⟨2048 * n + q.val, by have := q.isLt; omega⟩))
    (hz : ∀ (g : Fin 8) (q : Fin 2048), z (ix2 g q) = s (ix2 ⟨8 * k + g.val, by have := g.isLt; omega⟩ ⟨2048 * n + q.val, by have := q.isLt; omega⟩))
    (p : Fin 64) (q : Fin 2048) (i : ℕ) (hi : i < 1024) :
    blockTerm x c z p q i = term a b s p ⟨2048 * n + q.val, by have := q.isLt; omega⟩ (1024 * k + i) := by
  unfold blockTerm term
  rw [dif_pos hi, dif_pos (by omega : 1024 * k + i < 4096), hx, hc, hz]
  have e : (⟨8 * k + (⟨i / 128, by omega⟩ : Fin 8).val, by show 8 * k + i / 128 < 32; omega⟩ : Fin 32)
      = ⟨(1024 * k + i) / 128, by omega⟩ := Fin.ext (by show 8 * k + i / 128 = (1024 * k + i) / 128; omega)
  rw [e]

end Cert.GroupQuant

end
-- ==== Proof.BodyArith.lean ====
/-
  The kernel body's arithmetic at one grid point, read index by index on the extended reals.

  The body keeps a 64 × 2048 accumulator.  For each of the eight 128-row groups of the point's block it converts the
  group's integer codes, subtracts 8, multiplies by the group's scale row (broadcast down the 128 rows), and adds the
  product of the group's 64 × 128 activations with that 128 × 2048 weight tile onto the accumulator.  On the extended
  reals the narrowing of both operands to a shorter float format is the identity and the matrix unit's product into
  a zero accumulator is the plain sum, so each group contributes exactly its partial product `groupDot`.
-/
import proofs.«108225_j29832842838090_1_alg».proof.Proof.Gen.KernelIdeal.Skeleton
import proofs.«108225_j29832842838090_1_alg».proof.Proof.LibPlainDot
import proofs.«108225_j29832842838090_1_alg».proof.Proof.GroupQuant
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.GroupQuant

/-- The body's matrix products contract the activations' axis 1 with the weights' axis 0 and have no batch axes. -/
theorem dims_plain : PlainDot.IsPlain dot_S64x128_S128x2048_S64x2048_1_0_0_1_n_n := ⟨rfl, rfl, rfl, rfl, rfl, rfl⟩

/-- One group's product into the zero accumulator, at (p, q): the group's partial product. -/
theorem group_apply (hb : FTy.bits .bf16 < FTy.bits .f32) (hbr : S1x2048.Broadcasts S128x2048)
    (u : Vec Ideal S64x128 .f32) (v : Vec Ideal S128x2048 .i32) (r : Vec Ideal S1x2048 .f32) (p : Fin 64) (q : Fin 2048) :
    matmul (F := Ideal) dot_S64x128_S128x2048_S64x2048_1_0_0_1_n_n none
      (truncf .bf16 u hb)
      (truncf .bf16 (mulf (subf (sitofp .f32 v) (broadcast S128x2048 (Scalar.ofBits .f32 0x41000000#32)))
        (broadcastTo S128x2048 r hbr)) hb)
      (constant S64x2048 .f32 0x00000000#32) (ix2 p q) = groupDot u v r p q := by
  refine (PlainDot.matmul_zero_plain _ dims_plain none _ _ p q).trans ?_
  unfold groupDot
  refine Finset.sum_congr rfl fun κ _ => ?_
  rw [truncf_apply, truncf_apply, mulf_apply, subf_apply, sitofp_apply, broadcast_apply, broadcastTo_1b_ab_apply]
  rfl

/-- The reset value of the accumulator is zero everywhere. -/
theorem pay1_apply (i : S64x2048.Idx) : k0_pay1 (F := Ideal) i = 0 := by
  unfold k0_pay1
  show shapeCast S64x2048 (broadcast S64x2048 (Scalar.ofBits (F := Ideal) .f32 0x00000000#32)) _ i = 0
  rw [shapeCast_self]
  exact Ideal.ofBits_zero_f32

/-- Groups 0 and 1 added onto the accumulator found. -/
theorem pay2_apply (v3 : Vec Ideal S64x2048 .f32) (v4 : Vec Ideal S128x2048 .i32) (v5 : Vec Ideal S64x128 .f32) (v6 : Vec Ideal S1x2048 .f32)
    (v16 : Vec Ideal S128x2048 .i32) (v17 : Vec Ideal S64x128 .f32) (v18 : Vec Ideal S1x2048 .f32) (p : Fin 64) (q : Fin 2048) :
    k0_pay2 (F := Ideal) v3 v4 v5 v6 v16 v17 v18 (ix2 p q)
      = v3 (ix2 p q) + groupDot v5 v4 v6 p q + groupDot v17 v16 v18 p q := by
  unfold k0_pay2
  exact congrArg₂ (· + ·) (congrArg₂ (· + ·) rfl (group_apply _ _ v5 v4 v6 p q)) (group_apply _ _ v17 v16 v18 p q)

/-- Groups 2, 3 and 4 added onto the accumulator so far. -/
theorem pay3_apply (v27 : FVec Ideal S64x2048 .f32) (v28 : Vec Ideal S128x2048 .i32) (v29 : Vec Ideal S64x128 .f32) (v30 : Vec Ideal S1x2048 .f32)
    (v40 : Vec Ideal S128x2048 .i32) (v41 : Vec Ideal S64x128 .f32) (v42 : Vec Ideal S1x2048 .f32)
    (v52 : Vec Ideal S128x2048 .i32) (v53 : Vec Ideal S64x128 .f32) (v54 : Vec Ideal S1x2048 .f32) (p : Fin 64) (q : Fin 2048) :
    k0_pay3 (F := Ideal) v27 v28 v29 v30 v40 v41 v42 v52 v53 v54 (ix2 p q)
      = v27 (ix2 p q) + groupDot v29 v28 v30 p q + groupDot v41 v40 v42 p q + groupDot v53 v52 v54 p q := by
  unfold k0_pay3
  exact congrArg₂ (· + ·) (congrArg₂ (· + ·) (congrArg₂ (· + ·) rfl (group_apply _ _ v29 v28 v30 p q))
    (group_apply _ _ v41 v40 v42 p q)) (group_apply _ _ v53 v52 v54 p q)

/-- Groups 5, 6 and 7 added onto the accumulator so far: the value stored back. -/
theorem pay4_apply (v63 : FVec Ideal S64x2048 .f32) (v64 : Vec Ideal S128x2048 .i32) (v65 : Vec Ideal S64x128 .f32) (v66 : Vec Ideal S1x2048 .f32)
    (v76 : Vec Ideal S128x2048 .i32) (v77 : Vec Ideal S64x128 .f32) (v78 : Vec Ideal S1x2048 .f32)
    (v88 : Vec Ideal S128x2048 .i32) (v89 : Vec Ideal S64x128 .f32) (v90 : Vec Ideal S1x2048 .f32) (p : Fin 64) (q : Fin 2048) :
    k0_pay4 (F := Ideal) v63 v64 v65 v66 v76 v77 v78 v88 v89 v90 (ix2 p q)
      = v63 (ix2 p q) + groupDot v65 v64 v66 p q + groupDot v77 v76 v78 p q + groupDot v89 v88 v90 p q := by
  unfold k0_pay4
  show shapeCast S64x2048 _ _ (ix2 p q) = _
  rw [shapeCast_self]
  exact congrArg₂ (· + ·) (congrArg₂ (· + ·) (congrArg₂ (· + ·) rfl (group_apply _ _ v65 v64 v66 p q))
    (group_apply _ _ v77 v76 v78 p q)) (group_apply _ _ v89 v88 v90 p q)

end Cert.KernelIdeal.Body

end
-- ==== Proof.StepValue.lean ====
/-
  One grid point's update of the accumulator, index by index: the accumulator plus the block's 1024 terms.

  The update adds eight group products; group `g` reads the block's rows `128 g … 128 g + 127` and its scale row `g`, so
  its product is the block's terms `128 g … 128 g + 127`, and the eight groups in turn are the block's 1024 terms.
-/
import proofs.«108225_j29832842838090_1_alg».proof.Proof.Pieces
import proofs.«108225_j29832842838090_1_alg».proof.Proof.BodyArith

set_option maxRecDepth 16384

noncomputable section

open scoped BigOperators

namespace Cert.KernelIdeal.Step

open Cert.KernelIdeal Cert.KernelIdeal.Gen Idealize.ShloMosaic Idealize.ShloMosaic.ValueIdx
open Cert.GroupQuant Cert.KernelIdeal.Pieces Cert.KernelIdeal.Body

/-- A load through a unit-stride rectangle of a rank-2 array reads, at (p, q), the array at the rectangle's offsets
    plus (p, q). -/
theorem ld_at {Val : EltTy → Type} {e : EltTy} {A B A' B' : ℕ} (X : (⟨2, ![A, B]⟩ : Shape).Idx → Val e) (off : Fin 2 → ℕ)
    (inb : ∀ a, off a + (![A', B'] : Fin 2 → ℕ) a ≤ (⟨2, ![A, B]⟩ : Shape).size a)
    (p : Fin A') (q : Fin B') (p' : Fin A) (q' : Fin B) (hp : p'.val = off 0 + p.val) (hq : q'.val = off 1 + q.val) :
    View.ld X (Rect.unit off ![A', B'] inb) (ix2 p q) = X (ix2 p' q') := by
  show X ((Rect.unit (s := ⟨2, ![A, B]⟩) off ![A', B'] inb).toLoadRect.idx (ix2 p q)) = X (ix2 p' q')
  congr 1
  funext a
  apply Fin.ext
  match a with
  | ⟨0, _⟩ => show off 0 + 1 * p.val = p'.val; omega
  | ⟨1, _⟩ => show off 1 + 1 * q.val = q'.val; omega

/-- The update at (p, q): the accumulator there plus the block's 1024 terms. -/
theorem bodyStep_apply (acc : Vec Ideal S64x2048 .f32) (x0 : Vec Ideal S64x1024 .f32) (x1 : Vec Ideal S1024x2048 .i32)
    (x2 : Vec Ideal S8x2048 .f32) (p : Fin 64) (q : Fin 2048) :
    bodyStep acc x0 x1 x2 (ix2 p q) = acc (ix2 p q) + ∑ i ∈ Finset.range 1024, blockTerm x0 x1 x2 p q i := by
  have e0 : groupDot (View.ld x0 (Rect.unit ![0, 0] S64x128.size inb_S64x1024_S64x128_0_0))
      (View.ld x1 (Rect.unit ![0, 0] S128x2048.size inb_S1024x2048_S128x2048_0_0))
      (View.ld x2 (Rect.unit ![0, 0] S1x2048.size inb_S8x2048_S1x2048_0_0)) p q
      = ∑ j ∈ Finset.range 128, blockTerm x0 x1 x2 p q (0 + j) :=
    groupDot_eq_sum_blockTerm x0 x1 x2 _ _ _ 0 0 rfl (by decide)
      (fun p κ => ld_at (Val := Elt Ideal) (e := .f32) x0 ![0, 0] _ p κ p ⟨0 + κ.val, by have := κ.isLt; omega⟩
        (Nat.zero_add _).symm rfl)
      (fun κ q => ld_at (Val := Elt Ideal) (e := .i32) x1 ![0, 0] _ κ q ⟨0 + κ.val, by have := κ.isLt; omega⟩ q
        rfl (Nat.zero_add _).symm)
      (fun q => ld_at (Val := Elt Ideal) (e := .f32) x2 ![0, 0] _ (0 : Fin 1) q ⟨0, by decide⟩ q
        rfl (Nat.zero_add _).symm) p q
  have e1 : groupDot (View.ld x0 (Rect.unit ![0, 128] S64x128.size inb_S64x1024_S64x128_0_128))
      (View.ld x1 (Rect.unit ![128, 0] S128x2048.size inb_S1024x2048_S128x2048_128_0))
      (View.ld x2 (Rect.unit ![1, 0] S1x2048.size inb_S8x2048_S1x2048_1_0)) p q
      = ∑ j ∈ Finset.range 128, blockTerm x0 x1 x2 p q (128 + j) :=
    groupDot_eq_sum_blockTerm x0 x1 x2 _ _ _ 128 1 rfl (by decide)
      (fun p κ => ld_at (Val := Elt Ideal) (e := .f32) x0 ![0, 128] _ p κ p ⟨128 + κ.val, by have := κ.isLt; omega⟩
        (Nat.zero_add _).symm rfl)
      (fun κ q => ld_at (Val := Elt Ideal) (e := .i32) x1 ![128, 0] _ κ q ⟨128 + κ.val, by have := κ.isLt; omega⟩ q
        rfl (Nat.zero_add _).symm)
      (fun q => ld_at (Val := Elt Ideal) (e := .f32) x2 ![1, 0] _ (0 : Fin 1) q ⟨1, by decide⟩ q
        rfl (Nat.zero_add _).symm) p q
  have e2 : groupDot (View.ld x0 (Rect.unit ![0, 256] S64x128.size inb_S64x1024_S64x128_0_256))
      (View.ld x1 (Rect.unit ![256, 0] S128x2048.size inb_S1024x2048_S128x2048_256_0))
      (View.ld x2 (Rect.unit ![2, 0] S1x2048.size inb_S8x2048_S1x2048_2_0)) p q
      = ∑ j ∈ Finset.range 128, blockTerm x0 x1 x2 p q (256 + j) :=
    groupDot_eq_sum_blockTerm x0 x1 x2 _ _ _ 256 2 rfl (by decide)
      (fun p κ => ld_at (Val := Elt Ideal) (e := .f32) x0 ![0, 256] _ p κ p ⟨256 + κ.val, by have := κ.isLt; omega⟩
        (Nat.zero_add _).symm rfl)
      (fun κ q => ld_at (Val := Elt Ideal) (e := .i32) x1 ![256, 0] _ κ q ⟨256 + κ.val, by have := κ.isLt; omega⟩ q
        rfl (Nat.zero_add _).symm)
      (fun q => ld_at (Val := Elt Ideal) (e := .f32) x2 ![2, 0] _ (0 : Fin 1) q ⟨2, by decide⟩ q
        rfl (Nat.zero_add _).symm) p q
  have e3 : groupDot (View.ld x0 (Rect.unit ![0, 384] S64x128.size inb_S64x1024_S64x128_0_384))
      (View.ld x1 (Rect.unit ![384, 0] S128x2048.size inb_S1024x2048_S128x2048_384_0))
      (View.ld x2 (Rect.unit ![3, 0] S1x2048.size inb_S8x2048_S1x2048_3_0)) p q
      = ∑ j ∈ Finset.range 128, blockTerm x0 x1 x2 p q (384 + j) :=
    groupDot_eq_sum_blockTerm x0 x1 x2 _ _ _ 384 3 rfl (by decide)
      (fun p κ => ld_at (Val := Elt Ideal) (e := .f32) x0 ![0, 384] _ p κ p ⟨384 + κ.val, by have := κ.isLt; omega⟩
        (Nat.zero_add _).symm rfl)
      (fun κ q => ld_at (Val := Elt Ideal) (e := .i32) x1 ![384, 0] _ κ q ⟨384 + κ.val, by have := κ.isLt; omega⟩ q
        rfl (Nat.zero_add _).symm)
      (fun q => ld_at (Val := Elt Ideal) (e := .f32) x2 ![3, 0] _ (0 : Fin 1) q ⟨3, by decide⟩ q
        rfl (Nat.zero_add _).symm) p q
  have e4 : groupDot (View.ld x0 (Rect.unit ![0, 512] S64x128.size inb_S64x1024_S64x128_0_512))
      (View.ld x1 (Rect.unit ![512, 0] S128x2048.size inb_S1024x2048_S128x2048_512_0))
      (View.ld x2 (Rect.unit ![4, 0] S1x2048.size inb_S8x2048_S1x2048_4_0)) p q
      = ∑ j ∈ Finset.range 128, blockTerm x0 x1 x2 p q (512 + j) :=
    groupDot_eq_sum_blockTerm x0 x1 x2 _ _ _ 512 4 rfl (by decide)
      (fun p κ => ld_at (Val := Elt Ideal) (e := .f32) x0 ![0, 512] _ p κ p ⟨512 + κ.val, by have := κ.isLt; omega⟩
        (Nat.zero_add _).symm rfl)
      (fun κ q => ld_at (Val := Elt Ideal) (e := .i32) x1 ![512, 0] _ κ q ⟨512 + κ.val, by have := κ.isLt; omega⟩ q
        rfl (Nat.zero_add _).symm)
      (fun q => ld_at (Val := Elt Ideal) (e := .f32) x2 ![4, 0] _ (0 : Fin 1) q ⟨4, by decide⟩ q
        rfl (Nat.zero_add _).symm) p q
  have e5 : groupDot (View.ld x0 (Rect.unit ![0, 640] S64x128.size inb_S64x1024_S64x128_0_640))
      (View.ld x1 (Rect.unit ![640, 0] S128x2048.size inb_S1024x2048_S128x2048_640_0))
      (View.ld x2 (Rect.unit ![5, 0] S1x2048.size inb_S8x2048_S1x2048_5_0)) p q
      = ∑ j ∈ Finset.range 128, blockTerm x0 x1 x2 p q (640 + j) :=
    groupDot_eq_sum_blockTerm x0 x1 x2 _ _ _ 640 5 rfl (by decide)
      (fun p κ => ld_at (Val := Elt Ideal) (e := .f32) x0 ![0, 640] _ p κ p ⟨640 + κ.val, by have := κ.isLt; omega⟩
        (Nat.zero_add _).symm rfl)
      (fun κ q => ld_at (Val := Elt Ideal) (e := .i32) x1 ![640, 0] _ κ q ⟨640 + κ.val, by have := κ.isLt; omega⟩ q
        rfl (Nat.zero_add _).symm)
      (fun q => ld_at (Val := Elt Ideal) (e := .f32) x2 ![5, 0] _ (0 : Fin 1) q ⟨5, by decide⟩ q
        rfl (Nat.zero_add _).symm) p q
  have e6 : groupDot (View.ld x0 (Rect.unit ![0, 768] S64x128.size inb_S64x1024_S64x128_0_768))
      (View.ld x1 (Rect.unit ![768, 0] S128x2048.size inb_S1024x2048_S128x2048_768_0))
      (View.ld x2 (Rect.unit ![6, 0] S1x2048.size inb_S8x2048_S1x2048_6_0)) p q
      = ∑ j ∈ Finset.range 128, blockTerm x0 x1 x2 p q (768 + j) :=
    groupDot_eq_sum_blockTerm x0 x1 x2 _ _ _ 768 6 rfl (by decide)
      (fun p κ => ld_at (Val := Elt Ideal) (e := .f32) x0 ![0, 768] _ p κ p ⟨768 + κ.val, by have := κ.isLt; omega⟩
        (Nat.zero_add _).symm rfl)
      (fun κ q => ld_at (Val := Elt Ideal) (e := .i32) x1 ![768, 0] _ κ q ⟨768 + κ.val, by have := κ.isLt; omega⟩ q
        rfl (Nat.zero_add _).symm)
      (fun q => ld_at (Val := Elt Ideal) (e := .f32) x2 ![6, 0] _ (0 : Fin 1) q ⟨6, by decide⟩ q
        rfl (Nat.zero_add _).symm) p q
  have e7 : groupDot (View.ld x0 (Rect.unit ![0, 896] S64x128.size inb_S64x1024_S64x128_0_896))
      (View.ld x1 (Rect.unit ![896, 0] S128x2048.size inb_S1024x2048_S128x2048_896_0))
      (View.ld x2 (Rect.unit ![7, 0] S1x2048.size inb_S8x2048_S1x2048_7_0)) p q
      = ∑ j ∈ Finset.range 128, blockTerm x0 x1 x2 p q (896 + j) :=
    groupDot_eq_sum_blockTerm x0 x1 x2 _ _ _ 896 7 rfl (by decide)
      (fun p κ => ld_at (Val := Elt Ideal) (e := .f32) x0 ![0, 896] _ p κ p ⟨896 + κ.val, by have := κ.isLt; omega⟩
        (Nat.zero_add _).symm rfl)
      (fun κ q => ld_at (Val := Elt Ideal) (e := .i32) x1 ![896, 0] _ κ q ⟨896 + κ.val, by have := κ.isLt; omega⟩ q
        rfl (Nat.zero_add _).symm)
      (fun q => ld_at (Val := Elt Ideal) (e := .f32) x2 ![7, 0] _ (0 : Fin 1) q ⟨7, by decide⟩ q
        rfl (Nat.zero_add _).symm) p q
  unfold bodyStep
  rw [pay4_apply, pay3_apply, pay2_apply, add_sum_eight_groups, e0, e1, e2, e3, e4, e5, e6, e7]

/-- The zero block at (p, q). -/
theorem zero_apply (i : S64x2048.Idx) : k0_pay1 (F := Ideal) i = 0 := pay1_apply i

end Cert.KernelIdeal.Step

end
-- ==== Proof.KernelValue.lean ====
/-
  What the kernel's result array holds after the run: the product against the dequantized weights.

  The grid walks the seven 2048-column tiles of the result, and for each tile the four 1024-row blocks of the
  contraction axis.  Point `t` works on column tile `t / 4` and contraction block `t % 4`.  After that point the carried
  scratch holds, at (p, q), the first `1024 · (t % 4 + 1)` terms of the contraction for row `p` and column
  `2048 · (t / 4) + q`: at the first block of a tile the accumulator starts from zero, afterwards each point adds its
  block's 1024 terms to what the point before left.  At the last block of a tile the full sum of 4096 terms is copied to
  the output block, which the pipeline writes to columns `2048 · (t / 4) …` of the result; the seven tiles cover it.
-/
import proofs.«108225_j29832842838090_1_alg».proof.Proof.StepValue
import proofs.«108225_j29832842838090_1_alg».proof.Proof.Gen.KernelIdeal.Value

set_option maxRecDepth 16384

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx
open Idealize.ShloMosaic.Pipeline (Dat)
open Cert.GroupQuant Cert.KernelIdeal.Pieces Cert.KernelIdeal.Step

variable (m : (ℓ : Loc nD τ sig) → Buf (Elt Ideal) ℓ) (ρ : Dev nD → PrngReg)

theorem pt_lt (t : Fin cfg0.N) : t.val < 28 := lt_of_lt_of_eq t.isLt (show cfg0.N = 28 from N_0)

/-- The three argument arrays, at their literal types. -/
abbrev act (c : Dev nD) : Vec Ideal S64x4096 .f32 := m ((c : Thread nD τ).loc main_arg0)
abbrev codes (c : Dev nD) : Vec Ideal S4096x14336 .i32 := m ((c : Thread nD τ).loc main_arg1)
abbrev scales (c : Dev nD) : Vec Ideal S32x14336 .f32 := m ((c : Thread nD τ).loc main_arg2)

/-- The three input blocks of a point, at their literal types. -/
abbrev actBlk (c : Dev nD) (t : Fin cfg0.N) : Vec Ideal S64x1024 .f32 := iblk m c 0 t
abbrev codeBlk (c : Dev nD) (t : Fin cfg0.N) : Vec Ideal S1024x2048 .i32 := iblk m c 1 t
abbrev scaleBlk (c : Dev nD) (t : Fin cfg0.N) : Vec Ideal S8x2048 .f32 := iblk m c 2 t

/-- Where the windows' blocks lie: the activations' block moves along the contraction axis with `t % 4`; the codes'
    and the scales' blocks move down with `t % 4` and across with `t / 4`; the result's block moves across with `t / 4`. -/
theorem index_facts : ∀ t : Fin cfg0.N,
    win0_0.index t (0 : Fin 2) = 0 ∧ win0_0.index t (1 : Fin 2) = t.val % 4
    ∧ win0_1.index t (0 : Fin 2) = t.val % 4 ∧ win0_1.index t (1 : Fin 2) = t.val / 4
    ∧ win0_2.index t (0 : Fin 2) = t.val % 4 ∧ win0_2.index t (1 : Fin 2) = t.val / 4
    ∧ win0_3.index t (0 : Fin 2) = 0 ∧ win0_3.index t (1 : Fin 2) = t.val / 4 :=
  (by decide +kernel : ∀ t : Fin grid0.N, _)

theorem actBlk_apply (c : Dev nD) (t : Fin cfg0.N) (k : ℕ) (hk : t.val % 4 = k) (hk4 : k < 4) (p : Fin 64) (i : Fin 1024) :
    actBlk m c t (ix2 p i) = act m c (ix2 p ⟨1024 * k + i.val, by have := i.isLt; omega⟩) := by
  obtain ⟨e0, e1, -⟩ := index_facts t
  unfold actBlk iblk
  rw [View.read_apply]
  show m ((c : Thread nD τ).loc main_arg0) _ = m ((c : Thread nD τ).loc main_arg0) _
  congr 1
  funext a
  apply Fin.ext
  match a with
  | ⟨0, _⟩ => show win0_0.index t (0 : Fin 2) * 64 + 1 * p.val = p.val; omega
  | ⟨1, _⟩ => show win0_0.index t (1 : Fin 2) * 1024 + 1 * i.val = 1024 * k + i.val; omega

theorem codeBlk_apply (c : Dev nD) (t : Fin cfg0.N) (k nb : ℕ) (hk : t.val % 4 = k) (hnb : t.val / 4 = nb) (hk4 : k < 4)
    (hb : nb < 7) (i : Fin 1024) (q : Fin 2048) :
    codeBlk m c t (ix2 i q) = codes m c (ix2 ⟨1024 * k + i.val, by have := i.isLt; omega⟩ ⟨2048 * nb + q.val, by have := q.isLt; omega⟩) := by
  obtain ⟨-, -, e0, e1, -⟩ := index_facts t
  unfold codeBlk iblk
  rw [View.read_apply]
  show m ((c : Thread nD τ).loc main_arg1) _ = m ((c : Thread nD τ).loc main_arg1) _
  congr 1
  funext a
  apply Fin.ext
  match a with
  | ⟨0, _⟩ => show win0_1.index t (0 : Fin 2) * 1024 + 1 * i.val = 1024 * k + i.val; omega
  | ⟨1, _⟩ => show win0_1.index t (1 : Fin 2) * 2048 + 1 * q.val = 2048 * nb + q.val; omega

theorem scaleBlk_apply (c : Dev nD) (t : Fin cfg0.N) (k nb : ℕ) (hk : t.val % 4 = k) (hnb : t.val / 4 = nb) (hk4 : k < 4)
    (hb : nb < 7) (g : Fin 8) (q : Fin 2048) :
    scaleBlk m c t (ix2 g q) = scales m c (ix2 ⟨8 * k + g.val, by have := g.isLt; omega⟩ ⟨2048 * nb + q.val, by have := q.isLt; omega⟩) := by
  obtain ⟨-, -, -, -, e0, e1, -⟩ := index_facts t
  unfold scaleBlk iblk
  rw [View.read_apply]
  show m ((c : Thread nD τ).loc main_arg2) _ = m ((c : Thread nD τ).loc main_arg2) _
  congr 1
  funext a
  apply Fin.ext
  match a with
  | ⟨0, _⟩ => show win0_2.index t (0 : Fin 2) * 8 + 1 * g.val = 8 * k + g.val; omega
  | ⟨1, _⟩ => show win0_2.index t (1 : Fin 2) * 2048 + 1 * q.val = 2048 * nb + q.val; omega

/-- One point's update at (p, q): the accumulator there plus the 1024 terms of contraction block `k` for column
    `2048 · nb + q`. -/
theorem step_at (c : Dev nD) (t : Fin cfg0.N) (k nb : ℕ) (hk : t.val % 4 = k) (hnb : t.val / 4 = nb) (hk4 : k < 4) (hb : nb < 7)
    (acc : Vec Ideal S64x2048 .f32) (p : Fin 64) (q : Fin 2048) :
    bodyStep acc (actBlk m c t) (codeBlk m c t) (scaleBlk m c t) (ix2 p q)
      = acc (ix2 p q) + ∑ i ∈ Finset.range 1024,
          term (act m c) (codes m c) (scales m c) p ⟨2048 * nb + q.val, by have := q.isLt; omega⟩ (1024 * k + i) := by
  rw [bodyStep_apply]
  refine congrArg (acc (ix2 p q) + ·) (Finset.sum_congr rfl fun i hi => ?_)
  exact blockTerm_eq_term (act m c) (codes m c) (scales m c) (actBlk m c t) (codeBlk m c t) (scaleBlk m c t) k nb hk4 hb
    (actBlk_apply m c t k hk hk4) (codeBlk_apply m c t k nb hk hnb hk4 hb) (scaleBlk_apply m c t k nb hk hnb hk4 hb)
    p q i (Finset.mem_range.mp hi)

/-! ## What each point leaves, as the update of what it found -/

/-- At the first block of a tile the scratch ends at the update of the zero block. -/
theorem scratch_at_first (c : Dev nD) (n : ℕ) (h : n < cfg0.N) (h0 : n % 4 = 0) :
    (outsAt0 m c n h).2 = bodyStep (k0_pay1 (F := Ideal)) (actBlk m c ⟨n, h⟩) (codeBlk m c ⟨n, h⟩) (scaleBlk m c ⟨n, h⟩) := by
  have h1 : ¬(⟨n, h⟩ : Fin cfg0.N).val % 4 = 3 := by show ¬n % 4 = 3; omega
  rw [outsAt0_A m c ⟨n, h⟩ h0 h1]
  dsimp only
  exact scratch_first c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (fun hh => h1 ((hcond0_1 ⟨n, h⟩).mp hh))
    (iblk m c 0 ⟨n, h⟩) (iblk m c 1 ⟨n, h⟩) (iblk m c 2 ⟨n, h⟩)

/-- At a later block the scratch ends at the update of what the point before left in it. -/
theorem scratch_at_succ (c : Dev nD) (n : ℕ) (h : n + 1 < cfg0.N) (h0 : ¬(n + 1) % 4 = 0) :
    (outsAt0 m c (n + 1) h).2 = bodyStep (outsAt0 m c n (Nat.lt_of_succ_lt h)).2
      (actBlk m c ⟨n + 1, h⟩) (codeBlk m c ⟨n + 1, h⟩) (scaleBlk m c ⟨n + 1, h⟩) := by
  by_cases h1 : (n + 1) % 4 = 3
  · rw [outsAt0_C m c ⟨n + 1, h⟩ h0 h1]
    dsimp only
    exact scratch_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1)
      (iblk m c 0 ⟨n + 1, h⟩) (iblk m c 1 ⟨n + 1, h⟩) (iblk m c 2 ⟨n + 1, h⟩) (outsAt0 m c n (Nat.lt_of_succ_lt h)).2
  · rw [outsAt0_B m c ⟨n + 1, h⟩ h0 h1]
    dsimp only
    exact scratch_mid c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) (fun hh => h1 ((hcond0_1 ⟨n + 1, h⟩).mp hh))
      (iblk m c 0 ⟨n + 1, h⟩) (iblk m c 1 ⟨n + 1, h⟩) (iblk m c 2 ⟨n + 1, h⟩) (outsAt0 m c n (Nat.lt_of_succ_lt h)).2

/-- At the last block of a tile the output block ends at the same update. -/
theorem output_at_last (c : Dev nD) (n : ℕ) (h : n + 1 < cfg0.N) (h1 : (n + 1) % 4 = 3) :
    (outsAt0 m c (n + 1) h).1 = bodyStep (outsAt0 m c n (Nat.lt_of_succ_lt h)).2
      (actBlk m c ⟨n + 1, h⟩) (codeBlk m c ⟨n + 1, h⟩) (scaleBlk m c ⟨n + 1, h⟩) := by
  have h0 : ¬(n + 1) % 4 = 0 := by omega
  rw [outsAt0_C m c ⟨n + 1, h⟩ h0 h1]
  dsimp only
  exact output_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1)
    (iblk m c 0 ⟨n + 1, h⟩) (iblk m c 1 ⟨n + 1, h⟩) (iblk m c 2 ⟨n + 1, h⟩) (outsAt0 m c n (Nat.lt_of_succ_lt h)).2

/-! ## The running sum -/

/-- After point `n`, on contraction block `k = n % 4` of column tile `nb = n / 4`, the scratch holds at (p, q) the first
    `1024 · (k + 1)` terms of the contraction for row `p`, column `2048 · nb + q`. -/
theorem scratch_eq (c : Dev nD) : ∀ (n : ℕ) (h : n < cfg0.N) (k nb : ℕ) (hk : n % 4 = k) (hnb : n / 4 = nb) (hb : nb < 7)
    (p : Fin 64) (q : Fin 2048),
    (outsAt0 m c n h).2 (ix2 p q) = ∑ i ∈ Finset.range (1024 * (k + 1)),
      term (act m c) (codes m c) (scales m c) p ⟨2048 * nb + q.val, by have := q.isLt; omega⟩ i := by
  intro n
  induction n with
  | zero =>
    intro h k nb hk hnb hb p q
    obtain rfl : k = 0 := by omega
    rw [scratch_at_first m c 0 h rfl, step_at m c ⟨0, h⟩ 0 nb rfl hnb (by decide) hb, zero_apply, zero_add,
      sum_range_next_block, Nat.mul_zero, Finset.range_zero, Finset.sum_empty, zero_add]
  | succ n ih =>
    intro h k nb hk hnb hb p q
    have hk4 : k < 4 := by omega
    by_cases h0 : (n + 1) % 4 = 0
    · obtain rfl : k = 0 := by omega
      rw [scratch_at_first m c (n + 1) h h0, step_at m c ⟨n + 1, h⟩ 0 nb h0 hnb (by decide) hb, zero_apply, zero_add,
        sum_range_next_block, Nat.mul_zero, Finset.range_zero, Finset.sum_empty, zero_add]
    · obtain ⟨k', rfl⟩ : ∃ k', k = k' + 1 := ⟨k - 1, by omega⟩
      rw [scratch_at_succ m c n h h0, step_at m c ⟨n + 1, h⟩ (k' + 1) nb hk hnb hk4 hb,
        ih (Nat.lt_of_succ_lt h) k' nb (by omega) (by omega) hb p q, sum_range_next_block _ (k' + 1)]

/-- At the last block of a tile the output block holds the whole contraction: the specification at row `p`, column
    `2048 · nb + q`. -/
theorem output_eq (c : Dev nD) (n : ℕ) (h : n < cfg0.N) (nb : ℕ) (h3 : n % 4 = 3) (hnb : n / 4 = nb) (hb : nb < 7)
    (p : Fin 64) (q : Fin 2048) :
    (outsAt0 m c n h).1 (ix2 p q)
      = gemm (act m c) (codes m c) (scales m c) (ix2 p ⟨2048 * nb + q.val, by have := q.isLt; omega⟩) := by
  obtain ⟨n', rfl⟩ : ∃ n', n = n' + 1 := ⟨n - 1, by omega⟩
  rw [output_at_last m c n' h h3, step_at m c ⟨n' + 1, h⟩ 3 nb h3 hnb (by decide) hb,
    scratch_eq m c n' (Nat.lt_of_succ_lt h) 2 nb (by omega) (by omega) hb p q, ← sum_range_next_block _ 3]
  rfl

/-! ## The result array -/

/-- What a write-back writes is the specification's block: columns `2048 · (t / 4) …` of it. -/
theorem flushed_eq (c : Dev nD) (t : Fin cfg0.N) (hf : (cfg0.win 3).flush t = true) :
    (dats m 0 c).flushed 3 t = ((cfg0.win 3).blk t).view.read (Elt Ideal) (gemm (act m c) (codes m c) (scales m c)) := by
  have h3 : t.val % 4 = 3 := (flush0_3 t).mp hf
  have hb : t.val / 4 < 7 := by have := pt_lt t; omega
  obtain ⟨-, -, -, -, -, -, e0, e1⟩ := index_facts t
  rw [Cert.KernelIdeal.Value.flushed3]
  funext j
  obtain ⟨p, q, rfl⟩ : ∃ (p : Fin 64) (q : Fin 2048), j = ix2 p q := ⟨j 0, j 1, eq_ix2 j⟩
  rw [View.read_apply]
  show (outsAt0 m c t.val t.isLt).1 (ix2 p q) = gemm (act m c) (codes m c) (scales m c) _
  rw [output_eq m c t.val t.isLt (t.val / 4) h3 rfl hb p q]
  congr 1
  funext a
  apply Fin.ext
  match a with
  | ⟨0, _⟩ => show p.val = win0_3.index t (0 : Fin 2) * 64 + 1 * p.val; omega
  | ⟨1, _⟩ => show 2048 * (t.val / 4) + q.val = win0_3.index t (1 : Fin 2) * 2048 + 1 * q.val; omega

/-- An index of the result is in point `t`'s block iff each coordinate is in the block's range on its axis. -/
theorem mem_blk (t : Fin cfg0.N) (i : S64x14336.Idx) :
    i ∈ ((cfg0.win 3).blk t).view.set ↔ ∀ a : Fin 2, win0_3.index t a * S64x2048.size a ≤ (i a).val
      ∧ (i a).val < win0_3.index t a * S64x2048.size a + S64x2048.size a := by
  show i ∈ ((View.whole main_v0).slice (win0_3.rect t)).set ↔ _
  rw [View.set_slice_whole, Rect.mem_set_unit]
  exact Iff.rfl

/-- Every column lies in the tile written at the last block of its tile's run: point `4 · (col / 2048) + 3`. -/
theorem cover (i : S64x14336.Idx) : ∃ t : Fin cfg0.N, (cfg0.win 3).flush t = true ∧ i ∈ ((cfg0.win 3).blk t).view.set := by
  have hi0 : (i 0).val < 64 := (i 0).isLt
  have hi1 : (i 1).val < 14336 := (i 1).isLt
  have hN : cfg0.N = 28 := N_0
  let t : Fin cfg0.N := ⟨4 * ((i 1).val / 2048) + 3, by omega⟩
  have ht : t.val = 4 * ((i 1).val / 2048) + 3 := rfl
  obtain ⟨-, -, -, -, -, -, e0, e1⟩ := index_facts t
  refine ⟨t, (flush0_3 t).mpr (by omega), ?_⟩
  rw [mem_blk]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 2048 ≤ (i 1).val ∧ (i 1).val < win0_3.index t (1 : Fin 2) * 2048 + 2048; omega

/-- So the result array ends holding the specification. -/
theorem final (c : Dev nD) : (dats m 0 c).arrAt 3 cfg0.N = gemm (act m c) (codes m c) (scales m c) :=
  (dats m 0 c).arrAt_eq_of_cover 3 (gemm (act m c) (codes m c) (scales m c)) (flushed_eq m c) cover

/-- The kernel's run, read: the result array at the specification of the argument arrays, the arguments unchanged. -/
theorem run : θ_run defs (onTc (τ := τ) (main (F := Ideal))) ⟨m, fun _ => 0, ρ⟩ fun r => ∀ c : Dev nD,
      r.2.mem ((c : Thread nD τ).loc main_v0) = gemm (act m c) (codes m c) (scales m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Accum

end
-- ==== Proof.RefValue.lean ====
/-
  The reference computes the specification.

  The reference repeats each group's scale row over the group's 128 rows (a broadcast to 32 × 128 × 14336 reshaped to
  4096 × 14336, so that row κ of the expanded scales is row κ / 128 of the scales), dequantizes the whole code matrix,
  and takes one matrix product.  Index by index this is the specification's sum over the contraction axis.
-/
import proofs.«108225_j29832842838090_1_alg».proof.Proof.Gen.ReferenceIdeal.Read
import proofs.«108225_j29832842838090_1_alg».proof.Proof.GroupQuant

noncomputable section

open scoped BigOperators

namespace Cert.ReferenceIdeal.RefValue

open Cert.ReferenceIdeal Cert.ReferenceIdeal.Read Idealize.ShloMosaic Idealize.ShloMosaic.ValueIdx Cert.GroupQuant

/-- The reference's result, as a function of its three arguments, is the specification. -/
theorem ref_eq (x0 : Vec Ideal S64x4096 .f32) (x1 : Vec Ideal S4096x14336 .i32) (x2 : Vec Ideal S32x14336 .f32) :
    val_main_v6 (F := Ideal) x0 x1 x2 = gemm x0 x1 x2 := by
  funext i
  obtain ⟨p, q, rfl⟩ : ∃ (p : Fin 64) (q : Fin 14336), i = ix2 p q := ⟨i 0, i 1, eq_ix2 i⟩
  rw [val_main_v6_apply, gemm_apply]
  refine Finset.sum_congr rfl fun κ _ => ?_
  have hκ := κ.isLt
  have hq := q.isLt
  have el : lidx_main_v6 (ix2 p q) κ = ix2 p κ := funext fun a => Fin.ext (by
    match a with
    | ⟨0, _⟩ => rfl
    | ⟨1, _⟩ => rfl)
  have er : ridx_main_v6 (ix2 p q) κ = ix2 κ q := funext fun a => Fin.ext (by
    match a with
    | ⟨0, _⟩ => rfl
    | ⟨1, _⟩ => rfl)
  have es : idx_main_v0 (idx_main_v1 (ix2 κ q)) = ix2 ⟨κ.val / 128, by omega⟩ q := funext fun a => Fin.ext (by
    match a with
    | ⟨0, _⟩ => show (κ.val * 14336 + q.val) / 1835008 = κ.val / 128; omega
    | ⟨1, _⟩ => show (κ.val * 14336 + q.val) % 14336 = q.val; omega)
  show x0 (lidx_main_v6 (ix2 p q) κ) * val_main_v5 x1 x2 (ridx_main_v6 (ix2 p q) κ)
    = x0 (ix2 p κ) * ((FloatOps.sitofp (F := Ideal) .f32 (x1 (ix2 κ q)) - zeroPoint) * x2 (ix2 ⟨κ.val / 128, by omega⟩ q))
  rw [el, er, val_main_v5_apply, val_main_v4_apply, val_main_v2_apply, val_main_v3_apply, val_main_cst_apply,
    val_main_v1_apply, val_main_v0_apply, es]
  rfl

end Cert.ReferenceIdeal.RefValue

end
-- ==== Proof.lean ====
/-
  The certificate of a matrix product against group-quantized weights.

  The kernel computes `out p n = ∑ κ < 4096, a p κ · ((b κ n − 8) · s (κ / 128) n)` tile by tile: for each of seven
  2048-column tiles it walks the contraction axis in four blocks of 1024 rows, each block in eight groups of 128 rows
  sharing one scale row, accumulating in a scratch buffer and writing the tile out after the fourth block.  The
  reference expands the scales to one row per weight row, dequantizes the whole matrix, and takes one product.  On the
  extended reals both are the same sum of the same 4096 terms (`Cert.GroupQuant.gemm`); the kernel only groups and
  orders the additions differently, so the equality uses nothing but commutativity and associativity of addition and
  holds for all inputs, finite or not.

  The three frames are the generated frame runs (the reference's is its generated run with the result dropped); the
  idealization rewrote nothing, so its statement is trivial; the value claim sets the kernel's run, read as the
  specification of its arguments (`Cert.KernelIdeal.Accum.run`), beside the reference's run, whose term is the
  specification of arguments that agree (`Cert.ReferenceIdeal.RefValue.ref_eq`).
-/
import proofs.«108225_j29832842838090_1_alg».proof.Defs
import proofs.«108225_j29832842838090_1_alg».proof.Proof.Gen.Kernel
import proofs.«108225_j29832842838090_1_alg».proof.Proof.Gen.Kernel.Skeleton
import proofs.«108225_j29832842838090_1_alg».proof.Proof.Gen.Kernel.Launch
import proofs.«108225_j29832842838090_1_alg».proof.Proof.Gen.Kernel.Points
import proofs.«108225_j29832842838090_1_alg».proof.Proof.Gen.Kernel.Frame
import proofs.«108225_j29832842838090_1_alg».proof.Proof.Gen.KernelIdeal
import proofs.«108225_j29832842838090_1_alg».proof.Proof.Gen.KernelIdeal.Skeleton
import proofs.«108225_j29832842838090_1_alg».proof.Proof.Gen.KernelIdeal.Launch
import proofs.«108225_j29832842838090_1_alg».proof.Proof.Gen.KernelIdeal.Points
import proofs.«108225_j29832842838090_1_alg».proof.Proof.Gen.KernelIdeal.Frame
import proofs.«108225_j29832842838090_1_alg».proof.Proof.Gen.ReferenceIdeal
import proofs.«108225_j29832842838090_1_alg».proof.Proof.Gen.Pre_finite_inputs
import proofs.«108225_j29832842838090_1_alg».proof.Proof.Gen.KernelIdeal.Value
import proofs.«108225_j29832842838090_1_alg».proof.Proof.Gen.ReferenceIdeal.Run
import proofs.«108225_j29832842838090_1_alg».proof.Proof.Gen.ReferenceIdeal.Read
import proofs.«108225_j29832842838090_1_alg».proof.Proof.KernelValue
import proofs.«108225_j29832842838090_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization is the kernel's own text read on the extended reals: nothing to state. -/
theorem preserves : Cert.preserves_Kernel_KernelIdeal := trivial

/-- On the extended reals the kernel's result array and the reference's both end at the specification of arguments
    that agree. -/
theorem algebraic : Cert.algebraic_KernelIdeal_ReferenceIdeal := by
  intro m ρ m' ρ' _ hagree
  refine ⟨fun c => Cert.GroupQuant.gemm (Cert.KernelIdeal.Accum.act m c) (Cert.KernelIdeal.Accum.codes m c)
    (Cert.KernelIdeal.Accum.scales m c), Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
